-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64x32 : Shape := ⟨2, ![64, 32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_

variable [Facts]

def fn_part1 {F : FTy → Type} [FloatOps F] (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : FVec F S1600000 .f32) (main_arg4 : FVec F S128x64 .f32) (main_arg5 : FVec F S64x32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64x32 : Shape := ⟨2, ![64, 32]⟩
abbrev S100000x64 : Shape := ⟨2, ![100000, 64]⟩
abbrev S5000x128 : Shape := ⟨2, ![5000, 128]⟩
abbrev S5000x64 : Shape := ⟨2, ![5000, 64]⟩
abbrev S1600000x1 : Shape := ⟨2, ![1600000, 1]⟩
abbrev S_ : Shape := ⟨0, ![]⟩
abbrev S1600000x64 : Shape := ⟨2, ![1600000, 64]⟩
abbrev S100000x32 : Shape := ⟨2, ![100000, 32]⟩
abbrev S5000x32 : Shape := ⟨2, ![5000, 32]⟩
abbrev S1600000x32 : Shape := ⟨2, ![1600000, 32]⟩

abbrev nBuf : Space → Nat
  | .hbm => 40
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x64, .f32⟩
  | .hbm, ⟨5, _⟩ => ⟨S64x32, .f32⟩
  | .hbm, ⟨6, _⟩ => ⟨S100000x64, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S100000x32, .f32⟩
  | .hbm, ⟨24, _⟩ => ⟨S1600000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x32, .f32⟩
  | .hbm, ⟨34, _⟩ => ⟨S1600000x32, .f32⟩
  | .hbm, ⟨35, _⟩ => ⟨S1600000x32, .f32⟩
  | .hbm, ⟨36, _⟩ => ⟨S_, .f32⟩
  | .hbm, ⟨37, _⟩ => ⟨S100000x32, .f32⟩
  | .hbm, ⟨38, _⟩ => ⟨S1600000x1, .i32⟩
  | .hbm, ⟨39, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x32, .f32⟩
  | .local _ .vmem, ⟨8, _⟩ => ⟨S5000x32, .f32⟩
  | .local _ .vmem, ⟨9, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64x32 : Shape := ⟨2, ![64, 32]⟩
abbrev S100000x64 : Shape := ⟨2, ![100000, 64]⟩
abbrev S1600000x1 : Shape := ⟨2, ![1600000, 1]⟩
abbrev S_ : Shape := ⟨0, ![]⟩
abbrev S1600000x64 : Shape := ⟨2, ![1600000, 64]⟩
abbrev S100000x32 : Shape := ⟨2, ![100000, 32]⟩
abbrev S1600000x32 : Shape := ⟨2, ![1600000, 32]⟩

abbrev nBuf : Space → Nat
  | .hbm => 43
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x64, .f32⟩
  | .hbm, ⟨5, _⟩ => ⟨S64x32, .f32⟩
  | .hbm, ⟨6, _⟩ => ⟨S100000x64, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S_, .f32⟩
  | .hbm, ⟨24, _⟩ => ⟨S100000x64, .f32⟩
  | .hbm, ⟨25, _⟩ => ⟨S100000x64, .f32⟩
  | .hbm, ⟨26, _⟩ => ⟨S100000x32, .f32⟩
  | .hbm, ⟨27, _⟩ => ⟨S1600000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x32, .f32⟩
  | .hbm, ⟨37, _⟩ => ⟨S1600000x32, .f32⟩
  | .hbm, ⟨38, _⟩ => ⟨S1600000x32, .f32⟩
  | .hbm, ⟨39, _⟩ => ⟨S_, .f32⟩
  | .hbm, ⟨40, _⟩ => ⟨S100000x32, .f32⟩
  | .hbm, ⟨41, _⟩ => ⟨S1600000x1, .i32⟩
  | .hbm, ⟨42, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.DotSums.lean ====
import proofs.«125069_j88467736363911_1_alg».proof.Defs
import proofs.«125069_j88467736363911_1_alg».proof.Proof.Gen.KernelIdeal
import proofs.«125069_j88467736363911_1_alg».proof.Proof.Gen.ReferenceIdeal
import Idealize.ShloMosaic.Lib.ValueIdx
import Idealize.ShloMosaic.PureOps.Ideal.Laws

/-!
Matrix products over the extended reals.

Both programs multiply an [M, K] matrix by a [K, N] matrix with the plain dimension numbers (rows by the
contraction axis, the contraction axis by columns, no batch axis): the kernel block by block (M = 5000), the
reference in one piece (M = 100000). At the ideal values such a product, read at row `a` and column `b`, is
`∑ k, x[a, k] · w[k, b]`, with no rounding and no order in it. Extended-real addition is commutative and
associative and the two sides form the same family of products, so nothing here asks the entries to be finite.
-/

noncomputable section

open Idealize.ShloMosaic Idealize.ShloMosaic.ValueIdx
open scoped BigOperators

namespace Cert.DotSums

/-- The product of an [M, K] matrix and a [K, N] matrix, entry by entry. -/
def mm (M K N : Nat) (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- An entry of a product depends on one row of the left matrix and one column of the right: if row `j 0` of `x` is
    row `i 0` of `x'` and column `j 1` of `w` is column `i 1` of `w'`, the two products agree at `j` and `i`. -/
theorem mm_congr {M M' K N N' : Nat} (x : (⟨2, ![M, K]⟩ : Shape).Idx → EReal) (x' : (⟨2, ![M', K]⟩ : Shape).Idx → EReal)
    (w : (⟨2, ![K, N]⟩ : Shape).Idx → EReal) (w' : (⟨2, ![K, N']⟩ : Shape).Idx → EReal)
    (j : (⟨2, ![M, N]⟩ : Shape).Idx) (i : (⟨2, ![M', N']⟩ : Shape).Idx)
    (hx : ∀ k : Fin K, x (ix2 (j 0) k) = x' (ix2 (i 0) k)) (hw : ∀ k : Fin K, w (ix2 k (j 1)) = w' (ix2 k (i 1))) :
    mm M K N x w j = mm M' K N' x' w' i := by
  unfold mm
  exact Finset.sum_congr rfl fun k _ => by rw [hx k, hw k]

/-- The sum over the plain dimension numbers' contraction index is the sum over the contracted axis's coordinate:
    the left operand is read at (row, k), the right at (k, column). -/
theorem plain_sum (M K N : Nat) (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = mm M K N l r j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A kernel's matrix product into a zero accumulator, at the ideal values, is `mm`. -/
theorem matmul_zero_plain (M K N : Nat) {φ₁ φ₂ : FTy} (l : FVec Ideal ⟨2, ![M, K]⟩ φ₁) (r : FVec Ideal ⟨2, ![K, N]⟩ φ₂) :
    matmul (DotDims.plain M K N) none l r (constant ⟨2, ![M, N]⟩ .f32 0x00000000#32) = mm M K N l r := by
  funext j
  show FloatOps.matmul (DotDims.plain M K N) none l r (constant ⟨2, ![M, N]⟩ .f32 0x00000000#32) j = _
  rw [Ideal.matmul_constant_zero_apply]
  exact plain_sum M K N l r j

/-- The host's matrix product, at the ideal values, is `mm`. -/
theorem dotGeneral_plain (M K N : Nat) {φ₁ φ₂ : FTy} (l : FVec Ideal ⟨2, ![M, K]⟩ φ₁) (r : FVec Ideal ⟨2, ![K, N]⟩ φ₂) :
    Host.dotGeneral (DotDims.plain M K N) none l r = mm M K N l r := by
  funext j
  simp only [Host.dotGeneral]
  rw [Ideal.dotGeneral_apply]
  exact plain_sum M K N l r j

/-! The four printed dimension records are the plain ones. -/

theorem kdot0_eq : Cert.KernelIdeal.dot_S5000x128_S128x64_S5000x64_1_0_0_1_n_n = DotDims.plain 5000 128 64 := rfl
theorem kdot1_eq : Cert.KernelIdeal.dot_S5000x64_S64x32_S5000x32_1_0_0_1_n_n = DotDims.plain 5000 64 32 := rfl
theorem rdot0_eq : Cert.ReferenceIdeal.dot_S100000x128_S128x64_S100000x64_1_0_0_1_n_n = DotDims.plain 100000 128 64 := rfl
theorem rdot1_eq : Cert.ReferenceIdeal.dot_S100000x64_S64x32_S100000x32_1_0_0_1_n_n = DotDims.plain 100000 64 32 := rfl

end Cert.DotSums

end
-- ==== Proof.Region0.lean ====
import proofs.«125069_j88467736363911_1_alg».proof.Proof.Gen.KernelIdeal.Frame
import proofs.«125069_j88467736363911_1_alg».proof.Proof.DotSums
import Idealize.ShloMosaic.Lib.Pipeline.Value

/-!
The first kernel region's value: `x · w1`.

The region walks the 100000 rows of its left operand in 20 blocks of 5000 rows. At point `t` it loads rows
`5000 t … 5000 t + 4999` of the left operand and the whole right operand, multiplies them and writes the
[5000, 64] product back as block `t` of the result. Row `r` of that block is row `5000 t + r` of the whole
product, because a row of a matrix product depends on that row of the left operand only. The 20 blocks tile the
result, so after the region the result array is the whole product of the two arrays as the region found them.
-/

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Region0

open Cert.KernelIdeal Cert.KernelIdeal.Gen Cert.DotSums

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks (the change of format before the product is the
    identity at the ideal values). -/
theorem pay_eq (x0 : Vec Ideal S5000x128 .f32) (x1 : Vec Ideal S128x64 .f32) :
    k0_pay1 (F := Ideal) x0 x1 = mm 5000 128 64 x0 x1 := by
  unfold k0_pay1
  rw [kdot0_eq]
  exact matmul_zero_plain 5000 128 64 x0 x1

/-- The index maps over the grid: the left operand's and the result's blocks move down the rows with the point, the
    right operand's block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` holds rows `5000 t …` of its array: entry `x` of the block is the
    array's entry `i` whenever `i` is `x` moved down by `5000 t` rows. -/
theorem iblk_left (c : Dev nD) (t : Fin cfg0.N) (x : S5000x128.Idx) (i : S100000x128.Idx)
    (h0 : (i 0).val = 5000 * t.val + (x 0).val) (h1 : (i 1).val = (x 1).val) :
    (iblk0 V c 0 t : Vec Ideal S5000x128 .f32) x = (V c main_arg0 : S100000x128.Idx → Elt Ideal .f32) i := by
  obtain ⟨e0, e1, -⟩ := idx_facts t
  unfold iblk0
  rw [View.read_apply]
  refine congrArg (V c main_arg0 : S100000x128.Idx → Elt Ideal .f32) ?_
  funext a
  apply Fin.ext
  match a with
  | ⟨0, _⟩ => show win0_0.index t (0 : Fin 2) * 5000 + 1 * (x 0).val = (i 0).val; rw [e0, h0]; omega
  | ⟨1, _⟩ => show win0_0.index t (1 : Fin 2) * 128 + 1 * (x 1).val = (i 1).val; rw [e1, h1]; omega

/-- The right operand's block at every point is its whole array. -/
theorem iblk_right (c : Dev nD) (t : Fin cfg0.N) (x : S128x64.Idx) (i : S128x64.Idx)
    (h0 : (i 0).val = (x 0).val) (h1 : (i 1).val = (x 1).val) :
    (iblk0 V c 1 t : Vec Ideal S128x64 .f32) x = (V c main_arg4 : S128x64.Idx → Elt Ideal .f32) i := by
  obtain ⟨-, -, e2, e3, -⟩ := idx_facts t
  unfold iblk0
  rw [View.read_apply]
  refine congrArg (V c main_arg4 : S128x64.Idx → Elt Ideal .f32) ?_
  funext a
  apply Fin.ext
  match a with
  | ⟨0, _⟩ => show win0_1.index t (0 : Fin 2) * 128 + 1 * (x 0).val = (i 0).val; rw [e2, h0]; omega
  | ⟨1, _⟩ => show win0_1.index t (1 : Fin 2) * 64 + 1 * (x 1).val = (i 1).val; rw [e3, h1]; omega

/-- Entry `j` of the result's block at point `t` sits in the result array `5000 t` rows further down. -/
theorem emb_out (t : Fin cfg0.N) (j : S5000x64.Idx) :
    ((((cfg0.win 2).blk t).view.emb j) 0).val = 5000 * t.val + (j 0).val
      ∧ ((((cfg0.win 2).blk t).view.emb j) 1).val = (j 1).val := by
  obtain ⟨-, -, -, -, e4, e5⟩ := idx_facts t
  constructor
  · show win0_2.index t (0 : Fin 2) * 5000 + 1 * (j 0).val = _; rw [e4]; omega
  · show win0_2.index t (1 : Fin 2) * 64 + 1 * (j 1).val = _; rw [e5]; omega

/-- What point `t` writes back is block `t` of the whole product. -/
theorem flushed_eq (c : Dev nD) (t : Fin cfg0.N) :
    (dat0 V c).flushed 2 t = ((cfg0.win 2).blk t).view.read (Elt Ideal)
      (mm 100000 128 64 (V c main_arg0) (V c main_arg4)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  rw [pay_eq]
  funext j
  rw [View.read_apply]
  obtain ⟨o0, o1⟩ := emb_out t j
  exact mm_congr (iblk0 V c 0 t : Vec Ideal S5000x128 .f32) (V c main_arg0 : S100000x128.Idx → Elt Ideal .f32)
    (iblk0 V c 1 t : Vec Ideal S128x64 .f32) (V c main_arg4 : S128x64.Idx → Elt Ideal .f32) j (((cfg0.win 2).blk t).view.emb j)
    (fun k => iblk_left V c t (ix2 (j 0) k) (ix2 ((((cfg0.win 2).blk t).view.emb j) 0) k) o0 rfl)
    (fun k => iblk_right V c t (ix2 k (j 1)) (ix2 k ((((cfg0.win 2).blk t).view.emb j) 1)) rfl o1)

/-- An index of the result is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Every row of the result lies in the block of the point `row / 5000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_2 _, ?_⟩
  rw [mem_blk]
  obtain ⟨-, -, -, -, e4, e5⟩ := idx_facts ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 64 ≤ (i 1).val ∧ (i 1).val < win0_2.index _ (1 : Fin 2) * 64 + 64
    rw [e5]; omega

/-- After the region its result array is the whole product of its operands' arrays as it found them. -/
theorem final (c : Dev nD) : (dat0 V c).arrAt 2 cfg0.N = mm 100000 128 64 (V c main_arg0) (V c main_arg4) :=
  (dat0 V c).arrAt_eq_of_cover 2 (mm 100000 128 64 (V c main_arg0) (V c main_arg4)) (fun t _ => flushed_eq V c t) cover

end Cert.KernelIdeal.Region0

end
-- ==== Proof.Region1.lean ====
import proofs.«125069_j88467736363911_1_alg».proof.Proof.Gen.KernelIdeal.Frame
import proofs.«125069_j88467736363911_1_alg».proof.Proof.DotSums
import Idealize.ShloMosaic.Lib.Pipeline.Value

/-!
The second kernel region's value: `max(h, 0) · w2`.

The region walks the 100000 rows of its left operand `h` in 20 blocks of 5000 rows. At point `t` it loads rows
`5000 t … 5000 t + 4999` of `h` and the whole right operand, takes the maximum of each loaded entry with zero,
multiplies, and writes the [5000, 32] product back as block `t` of the result. The maximum acts entry by entry, so
the block of maxima is the block of the array of maxima; and a row of a matrix product depends on that row of the left
operand only. The 20 blocks tile the result, so after the region the result array is the whole product of the
array of maxima and the right operand, as the region found them.
-/

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Region1

open Cert.KernelIdeal Cert.KernelIdeal.Gen Cert.DotSums

variable (V : (c : Dev nD) → (b : Ref sig .tc) → Buf (Elt Ideal) ((c : Thread nD τ).loc b))

theorem hz : (![0, 0] : Fin 2 → Nat) = fun _ => 0 := funext fun a => by fin_cases a <;> rfl

/-- The maximum with zero of a whole [100000, 64] array, the zero spelt as the host spells it: a scalar constant
    broadcast to the array's shape. -/
def relu (h : FVec Ideal S100000x64 .f32) : FVec Ideal S100000x64 .f32 :=
  maximumf h (broadcastInDim S100000x64 ![] bcast_S_S100000x64 (constant (F := Ideal) S_ .f32 0x00000000#32))

/-- Read at an entry it is the maximum of that entry and the zero word's value. -/
theorem relu_apply (h : FVec Ideal S100000x64 .f32) (i : S100000x64.Idx) :
    relu h i = FloatOps.maximumf (h i) (Scalar.ofBits (F := Ideal) .f32 0x00000000#32) := rfl

/-- The kernel's block of maxima, read at an entry: the same maximum, the zero a splat of the scalar. -/
theorem blockRelu_apply (x0 : Vec Ideal S5000x64 .f32) (y : S5000x64.Idx) :
    (maximumf (shapeCast S5000x64 x0 shapeCasts_S5000x64_S5000x64) (broadcast S5000x64 (Scalar.ofBits (F := Ideal) .f32 0x00000000#32)) : FVec Ideal S5000x64 .f32) y
      = FloatOps.maximumf (x0 y) (Scalar.ofBits (F := Ideal) .f32 0x00000000#32) := by
  rw [shapeCast_self]
  rfl

/-- The body's stored value is the product of the block of maxima and the right operand's block (the changes of
    format before the product are the identity at the ideal values). -/
theorem pay_eq (x0 : Vec Ideal S5000x64 .f32) (x1 : Vec Ideal S64x32 .f32) :
    k1_pay1 (F := Ideal) x0 x1
      = mm 5000 64 32 (maximumf (shapeCast S5000x64 x0 shapeCasts_S5000x64_S5000x64) (broadcast S5000x64 (Scalar.ofBits (F := Ideal) .f32 0x00000000#32))) x1 := by
  unfold k1_pay1
  rw [kdot1_eq]
  exact matmul_zero_plain 5000 64 32 _ x1

/-- The index maps over the grid: the left operand's and the result's blocks move down the rows with the point, the
    right operand's block stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t` holds rows `5000 t …` of its array: entry `x` of the block is the
    array's entry `i` whenever `i` is `x` moved down by `5000 t` rows. -/
theorem iblk_left (c : Dev nD) (t : Fin cfg1.N) (x : S5000x64.Idx) (i : S100000x64.Idx)
    (h0 : (i 0).val = 5000 * t.val + (x 0).val) (h1 : (i 1).val = (x 1).val) :
    (iblk1 V c 0 t : Vec Ideal S5000x64 .f32) x = (V c main_v13 : S100000x64.Idx → Elt Ideal .f32) i := by
  obtain ⟨e0, e1, -⟩ := idx_facts t
  unfold iblk1
  rw [View.read_apply]
  refine congrArg (V c main_v13 : S100000x64.Idx → Elt Ideal .f32) ?_
  funext a
  apply Fin.ext
  match a with
  | ⟨0, _⟩ => show win1_0.index t (0 : Fin 2) * 5000 + 1 * (x 0).val = (i 0).val; rw [e0, h0]; omega
  | ⟨1, _⟩ => show win1_0.index t (1 : Fin 2) * 64 + 1 * (x 1).val = (i 1).val; rw [e1, h1]; omega

/-- The right operand's block at every point is its whole array. -/
theorem iblk_right (c : Dev nD) (t : Fin cfg1.N) (x : S64x32.Idx) (i : S64x32.Idx)
    (h0 : (i 0).val = (x 0).val) (h1 : (i 1).val = (x 1).val) :
    (iblk1 V c 1 t : Vec Ideal S64x32 .f32) x = (V c main_arg5 : S64x32.Idx → Elt Ideal .f32) i := by
  obtain ⟨-, -, e2, e3, -⟩ := idx_facts t
  unfold iblk1
  rw [View.read_apply]
  refine congrArg (V c main_arg5 : S64x32.Idx → Elt Ideal .f32) ?_
  funext a
  apply Fin.ext
  match a with
  | ⟨0, _⟩ => show win1_1.index t (0 : Fin 2) * 64 + 1 * (x 0).val = (i 0).val; rw [e2, h0]; omega
  | ⟨1, _⟩ => show win1_1.index t (1 : Fin 2) * 32 + 1 * (x 1).val = (i 1).val; rw [e3, h1]; omega

/-- Entry `j` of the result's block at point `t` sits in the result array `5000 t` rows further down. -/
theorem emb_out (t : Fin cfg1.N) (j : S5000x32.Idx) :
    ((((cfg1.win 2).blk t).view.emb j) 0).val = 5000 * t.val + (j 0).val
      ∧ ((((cfg1.win 2).blk t).view.emb j) 1).val = (j 1).val := by
  obtain ⟨-, -, -, -, e4, e5⟩ := idx_facts t
  constructor
  · show win1_2.index t (0 : Fin 2) * 5000 + 1 * (j 0).val = _; rw [e4]; omega
  · show win1_2.index t (1 : Fin 2) * 32 + 1 * (j 1).val = _; rw [e5]; omega

/-- What point `t` writes back is block `t` of the whole product. -/
theorem flushed_eq (c : Dev nD) (t : Fin cfg1.N) :
    (dat1 V c).flushed 2 t = ((cfg1.win 2).blk t).view.read (Elt Ideal)
      (mm 100000 64 32 (relu (V c main_v13)) (V c main_arg5)) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x32) hz]
  rw [pay_eq]
  funext j
  rw [View.read_apply]
  obtain ⟨o0, o1⟩ := emb_out t j
  exact mm_congr _ (relu (V c main_v13))
    (iblk1 V c 1 t : Vec Ideal S64x32 .f32) (V c main_arg5 : S64x32.Idx → Elt Ideal .f32) j (((cfg1.win 2).blk t).view.emb j)
    (fun k => by
      rw [blockRelu_apply, relu_apply,
        iblk_left V c t (ix2 (j 0) k) (ix2 ((((cfg1.win 2).blk t).view.emb j) 0) k) o0 rfl])
    (fun k => iblk_right V c t (ix2 k (j 1)) (ix2 k ((((cfg1.win 2).blk t).view.emb j) 1)) rfl o1)

/-- An index of the result is in point `t`'s block iff each coordinate is in the block's range on its axis. -/
theorem mem_blk (t : Fin cfg1.N) (i : S100000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v14).slice (win1_2.rect t)).set ↔ _
  rw [View.set_slice_whole, Rect.mem_set_unit]
  exact Iff.rfl

/-- Every row of the result lies in the block of the point `row / 5000`. -/
theorem cover (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 20 := N_1
  refine ⟨⟨(i 0).val / 5000, by rw [hN]; omega⟩, flush1_2 _, ?_⟩
  rw [mem_blk]
  obtain ⟨-, -, -, -, e4, e5⟩ := idx_facts ⟨(i 0).val / 5000, by rw [hN]; omega⟩
  intro a
  match a with
  | ⟨0, _⟩ =>
    show win1_2.index _ (0 : Fin 2) * 5000 ≤ (i 0).val ∧ (i 0).val < win1_2.index _ (0 : Fin 2) * 5000 + 5000
    rw [e4]; show (i 0).val / 5000 * 5000 ≤ (i 0).val ∧ (i 0).val < (i 0).val / 5000 * 5000 + 5000; omega
  | ⟨1, _⟩ =>
    show win1_2.index _ (1 : Fin 2) * 32 ≤ (i 1).val ∧ (i 1).val < win1_2.index _ (1 : Fin 2) * 32 + 32
    rw [e5]; omega

/-- After the region its result array is the whole product of the array of maxima and the right operand's array, as
    the region found them. -/
theorem final (c : Dev nD) : (dat1 V c).arrAt 2 cfg1.N = mm 100000 64 32 (relu (V c main_v13)) (V c main_arg5) :=
  (dat1 V c).arrAt_eq_of_cover 2 (mm 100000 64 32 (relu (V c main_v13)) (V c main_arg5)) (fun t _ => flushed_eq V c t) cover

end Cert.KernelIdeal.Region1

end
-- ==== Proof.Chain.lean ====
import proofs.«125069_j88467736363911_1_alg».proof.Proof.Gen.KernelIdeal.Frame
import proofs.«125069_j88467736363911_1_alg».proof.Proof.Region0
import proofs.«125069_j88467736363911_1_alg».proof.Proof.Region1

/-!
The idealized kernel program's result as one term of its arguments.

Between and after its two kernel regions the program applies the same sparse step twice: gather the rows
`h[col[e]]` (a negative index first moved up by the row count, as the host's indexing does), scale row `e` by
`val[e]`, and add the scaled rows into a zero array at the rows `row[e]`. Each occurrence is carried here as ONE
function of the array it is applied to and of the three edge arrays (`agg64` for 64 columns, `agg32` for 32); it is
never opened, because the reference applies the very same operations.

The buffer contents at the program's last boundary are a fold through its four segments. Reading the fold back at the
result buffer: the second host stretch applies `agg32` to what the second region left; the second region left
`max(h, 0) · w2` of what the first host stretch left; that stretch applied `agg64` to what the first region left; and
the first region left `x · w1`. No segment writes an argument, so every argument is read back as launched.
-/

set_option maxRecDepth 16384

noncomputable section

open Idealize.ShloMosaic Idealize.ShloMosaic.TcCoe Idealize.SL.Sem

namespace Cert.KernelIdeal.Chain

open Cert.KernelIdeal Cert.KernelIdeal.Gen Cert.DotSums

section Fold

variable {F : FTy → Type} [FloatOps F]

/-- The sparse step on a [100000, 64] array: `out[i] = ∑_{e : row[e] = i} val[e] · h[col[e]]`, as the host spells it. -/
def agg64 (h : (⟨S100000x64, .f32⟩ : BufTy).Contents (Elt F)) (row col : (⟨S1600000, .i32⟩ : BufTy).Contents (Elt F))
    (val : (⟨S1600000, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 row)
    (mulf (broadcastInDim S1600000x64 ![0, 1] bcast_S1600000x1_S1600000x64_0_1 (broadcastInDim S1600000x1 ![0] bcast_S1600000_S1600000x1_0 val))
      (Host.gather gather_S100000x64_S1600000x1_S1600000x64_1_0_n_n_0_1_164 h
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

/-- The same step on a [100000, 32] array. -/
def agg32 (h : (⟨S100000x32, .f32⟩ : BufTy).Contents (Elt F)) (row col : (⟨S1600000, .i32⟩ : BufTy).Contents (Elt F))
    (val : (⟨S1600000, .f32⟩ : BufTy).Contents (Elt F)) : (⟨S100000x32, .f32⟩ : BufTy).Contents (Elt F) :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 row)
    (mulf (broadcastInDim S1600000x32 ![0, 1] bcast_S1600000x1_S1600000x32_0_1 (broadcastInDim S1600000x1 ![0] bcast_S1600000_S1600000x1_0 val))
      (Host.gather gather_S100000x32_S1600000x1_S1600000x32_1_0_n_n_0_1_132 h
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

variable (m : (ℓ : Loc nD τ sig) → Buf (Elt F) ℓ) (ρ : Dev nD → PrngReg)

/-! ### After the first region: the edge arrays and the second weight are as launched -/

theorem W1_arg1 (c : Dev nD) : W1 m ρ c (Proc.devRef .tc main_arg1) = m ((c : Thread nD τ).loc main_arg1) :=
  W1_of_ne m ρ c main_arg1 (by decide)
theorem W1_arg2 (c : Dev nD) : W1 m ρ c (Proc.devRef .tc main_arg2) = m ((c : Thread nD τ).loc main_arg2) :=
  W1_of_ne m ρ c main_arg2 (by decide)
theorem W1_arg3 (c : Dev nD) : W1 m ρ c (Proc.devRef .tc main_arg3) = m ((c : Thread nD τ).loc main_arg3) :=
  W1_of_ne m ρ c main_arg3 (by decide)
theorem W1_arg5 (c : Dev nD) : W1 m ρ c (Proc.devRef .tc main_arg5) = m ((c : Thread nD τ).loc main_arg5) :=
  W1_of_ne m ρ c main_arg5 (by decide)

/-! ### After the first host stretch -/

/-- The stretch's last operation writes the sparse step of what the first region left. -/
theorem W2_v13 (c : Dev nD) : W2 m ρ c (Proc.devRef .tc main_v13)
    = agg64 (W1 m ρ c (Proc.devRef .tc main_v0)) (W1 m ρ c (Proc.devRef .tc main_arg1))
        (W1 m ρ c (Proc.devRef .tc main_arg2)) (W1 m ρ c (Proc.devRef .tc main_arg3)) := by
  dsimp only [W2, hostOps1]
  after_results
  rfl

theorem W2_arg1 (c : Dev nD) : W2 m ρ c (Proc.devRef .tc main_arg1) = m ((c : Thread nD τ).loc main_arg1) := by
  dsimp only [W2, hostOps1]; after_results; exact W1_arg1 m ρ c
theorem W2_arg2 (c : Dev nD) : W2 m ρ c (Proc.devRef .tc main_arg2) = m ((c : Thread nD τ).loc main_arg2) := by
  dsimp only [W2, hostOps1]; after_results; exact W1_arg2 m ρ c
theorem W2_arg3 (c : Dev nD) : W2 m ρ c (Proc.devRef .tc main_arg3) = m ((c : Thread nD τ).loc main_arg3) := by
  dsimp only [W2, hostOps1]; after_results; exact W1_arg3 m ρ c
theorem W2_arg5 (c : Dev nD) : W2 m ρ c (Proc.devRef .tc main_arg5) = m ((c : Thread nD τ).loc main_arg5) := by
  dsimp only [W2, hostOps1]; after_results; exact W1_arg5 m ρ c

/-! ### After the second region: the edge arrays are as launched -/

theorem W3_arg1 (c : Dev nD) : W3 m ρ c (Proc.devRef .tc main_arg1) = m ((c : Thread nD τ).loc main_arg1) :=
  (W3_of_ne m ρ c main_arg1 (by decide)).trans (W2_arg1 m ρ c)
theorem W3_arg2 (c : Dev nD) : W3 m ρ c (Proc.devRef .tc main_arg2) = m ((c : Thread nD τ).loc main_arg2) :=
  (W3_of_ne m ρ c main_arg2 (by decide)).trans (W2_arg2 m ρ c)
theorem W3_arg3 (c : Dev nD) : W3 m ρ c (Proc.devRef .tc main_arg3) = m ((c : Thread nD τ).loc main_arg3) :=
  (W3_of_ne m ρ c main_arg3 (by decide)).trans (W2_arg3 m ρ c)

/-! ### After the second host stretch -/

/-- The stretch's last operation writes the sparse step of what the second region left. -/
theorem W4_v27 (c : Dev nD) : W4 m ρ c (Proc.devRef .tc main_v27)
    = agg32 (W3 m ρ c (Proc.devRef .tc main_v14)) (W3 m ρ c (Proc.devRef .tc main_arg1))
        (W3 m ρ c (Proc.devRef .tc main_arg2)) (W3 m ρ c (Proc.devRef .tc main_arg3)) := by
  dsimp only [W4, hostOps2]
  after_results
  rfl

end Fold

/-! ## The result at the ideal values -/

section Value

variable (m : (ℓ : Loc nD τ sig) → Buf (Elt Ideal) ℓ) (ρ : Dev nD → PrngReg)

/-- The program's result as one term of the launch memory's argument arrays. -/
def result (c : Dev nD) : (⟨S100000x32, .f32⟩ : BufTy).Contents (Elt Ideal) :=
  agg32
    (mm 100000 64 32
      (Region1.relu
        (agg64 (mm 100000 128 64 (m ((c : Thread nD τ).loc main_arg0)) (m ((c : Thread nD τ).loc main_arg4)))
          (m ((c : Thread nD τ).loc main_arg1)) (m ((c : Thread nD τ).loc main_arg2)) (m ((c : Thread nD τ).loc main_arg3))))
      (m ((c : Thread nD τ).loc main_arg5)))
    (m ((c : Thread nD τ).loc main_arg1)) (m ((c : Thread nD τ).loc main_arg2)) (m ((c : Thread nD τ).loc main_arg3))

/-- What the first region leaves in its result array. -/
theorem W1_v0 (c : Dev nD) : W1 m ρ c (Proc.devRef .tc main_v0)
    = mm 100000 128 64 (m ((c : Thread nD τ).loc main_arg0)) (m ((c : Thread nD τ).loc main_arg4)) :=
  (W1_arr m ρ c 2).trans (Region0.final (V0 m ρ) c)

/-- What the second region leaves in its result array. -/
theorem W3_v14 (c : Dev nD) : W3 m ρ c (Proc.devRef .tc main_v14)
    = mm 100000 64 32 (Region1.relu (W2 m ρ c (Proc.devRef .tc main_v13))) (W2 m ρ c (Proc.devRef .tc main_arg5)) :=
  (W3_arr m ρ c 2).trans (Region1.final (V2 m ρ) c)

/-- The last boundary's contents at the result buffer are `result`. -/
theorem W4_result (c : Dev nD) : W4 m ρ c (Proc.devRef .tc main_v27) = result m c := by
  rw [W4_v27, W3_arg1, W3_arg2, W3_arg3, W3_v14, W2_v13, W2_arg5, W1_arg1, W1_arg2, W1_arg3, W1_v0]
  rfl

end Value

end Cert.KernelIdeal.Chain

end
-- ==== Proof.RefValue.lean ====
import proofs.«125069_j88467736363911_1_alg».proof.Defs
import proofs.«125069_j88467736363911_1_alg».proof.Proof.Chain
import proofs.«125069_j88467736363911_1_alg».proof.Proof.Gen.ReferenceIdeal.Run
import proofs.«125069_j88467736363911_1_alg».proof.Proof.Gen.ReferenceIdeal.Read

/-!
The reference's result is the kernel program's.

The reference computes `A · max(A · (x · w1), 0) · w2` with `A` the sparse step, its two matrix products done by the
host in one piece each. At the ideal values a host product of the plain dimension numbers is the entry-by-entry sum
`∑ k, x[a, k] · w[k, b]`, which is what the kernel program's two regions leave; the maximum with zero and the two sparse
steps are the same operations in both programs. So the two results are one term of the arguments.
-/

noncomputable section

open Idealize.ShloMosaic Idealize.ShloMosaic.TcCoe Idealize.SL.Sem

namespace Cert.ReferenceIdeal.RefValue

open Cert.DotSums

/-- The reference's last stage, as a function of the six argument arrays, is the kernel program's result term. -/
theorem stage_eq (x0 : FVec Ideal Cert.ReferenceIdeal.S100000x128 .f32) (x1 x2 : IVec Cert.ReferenceIdeal.S1600000 32)
    (x3 : FVec Ideal Cert.ReferenceIdeal.S1600000 .f32) (x4 : FVec Ideal Cert.ReferenceIdeal.S128x64 .f32)
    (x5 : FVec Ideal Cert.ReferenceIdeal.S64x32 .f32) :
    Cert.ReferenceIdeal.Read.val_main_v28 (F := Ideal) x0 x1 x2 x3 x4 x5
      = Cert.KernelIdeal.Chain.agg32 (F := Ideal)
          (mm 100000 64 32
            (Cert.KernelIdeal.Region1.relu (Cert.KernelIdeal.Chain.agg64 (F := Ideal) (mm 100000 128 64 x0 x4) x1 x2 x3))
            x5)
          x1 x2 x3 := by
  rw [← Cert.ReferenceIdeal.Read.val_main_v28_eq]
  rw [rdot0_eq, rdot1_eq, dotGeneral_plain, dotGeneral_plain]
  rfl

end Cert.ReferenceIdeal.RefValue

end
-- ==== Proof.lean ====
/-
  A two-layer graph convolution, `A · max(A · (x · w1), 0) · w2` with `A` a sparse matrix given by its edges (rows,
  columns, values), computed two ways. The kernel program does the two dense products in Pallas kernels, each walking
  the 100000 rows in 20 blocks of 5000 (the second with the maximum fused in front), and the sparse steps by the host's
  gather and scatter-add; the reference does everything with host operations.

  Frames. The kernel programs' frames are the generated several-region frames; the reference's is its generated run
  with the result dropped. The idealization rewrote nothing, so there is nothing to preserve.

  Value. The kernel program's run, re-posted with the result buffer named, ends at the fold of its four segments read
  at the result buffer; read back, that is the sparse step of `max(·, 0) · w2` of the sparse step of `x · w1`, where
  each region's blocks tile its whole product (a row of a product depends on that row of the left operand only). At
  the ideal values a product, kernel's or host's, is the plain sum `∑ k, x[a, k] · w[k, b]`; the changes of float
  format are the identity; the maximum and the sparse steps are the same operations on both sides. The two results
  are one term of the arguments. Nothing uses finiteness: both sides form the same sums of the same products.
-/
import proofs.«125069_j88467736363911_1_alg».proof.Defs
import proofs.«125069_j88467736363911_1_alg».proof.Proof.Gen.Kernel
import proofs.«125069_j88467736363911_1_alg».proof.Proof.Gen.Kernel.Skeleton
import proofs.«125069_j88467736363911_1_alg».proof.Proof.Gen.Kernel.Launch
import proofs.«125069_j88467736363911_1_alg».proof.Proof.Gen.Kernel.Points
import proofs.«125069_j88467736363911_1_alg».proof.Proof.Gen.Kernel.Frame
import proofs.«125069_j88467736363911_1_alg».proof.Proof.Gen.KernelIdeal
import proofs.«125069_j88467736363911_1_alg».proof.Proof.Gen.KernelIdeal.Skeleton
import proofs.«125069_j88467736363911_1_alg».proof.Proof.Gen.KernelIdeal.Launch
import proofs.«125069_j88467736363911_1_alg».proof.Proof.Gen.KernelIdeal.Points
import proofs.«125069_j88467736363911_1_alg».proof.Proof.Gen.KernelIdeal.Frame
import proofs.«125069_j88467736363911_1_alg».proof.Proof.Gen.ReferenceIdeal
import proofs.«125069_j88467736363911_1_alg».proof.Proof.Gen.Pre_finite_inputs
import proofs.«125069_j88467736363911_1_alg».proof.Proof.Gen.ReferenceIdeal.Run
import proofs.«125069_j88467736363911_1_alg».proof.Proof.Gen.ReferenceIdeal.Read
import proofs.«125069_j88467736363911_1_alg».proof.Proof.RunRead
import proofs.«125069_j88467736363911_1_alg».proof.Proof.Chain
import proofs.«125069_j88467736363911_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at one term of the arguments. -/
theorem algebraic : Cert.algebraic_KernelIdeal_ReferenceIdeal := by
  intro m ρ m' ρ' _ hagree
  refine ⟨fun c => Cert.KernelIdeal.Chain.result m c, ?_, ?_⟩
  · exact (θ_run Cert.KernelIdeal.defs _ _).mono
      (fun r h c => ⟨(h c).1.trans (Cert.KernelIdeal.Chain.W4_result m ρ c), (h c).2⟩)
      (Cert.KernelIdeal.RunRead.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    exact (Cert.ReferenceIdeal.Read.val_main_v28_eq _ _ _ _ _ _).trans (Cert.ReferenceIdeal.RefValue.stage_eq _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
